-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000 : Shape := ⟨1, ![5000000]⟩
abbrev S5000000x8 : Shape := ⟨2, ![5000000, 8]⟩
abbrev S5000000x6 : Shape := ⟨2, ![5000000, 6]⟩
abbrev S_ : Shape := ⟨0, ![]⟩

class Facts : Prop where
  bcast_S_S5000000 : S_.BroadcastsInDim S5000000 (![] : Fin 0 → Fin S5000000.rank)
  reducesTo_S5000000_S_d0 : S5000000.ReducesTo [0] S_
  h_S_ : 0 < S_.numel
  bcast_S_S5000000x8 : S_.BroadcastsInDim S5000000x8 (![] : Fin 0 → Fin S5000000x8.rank)
  reducesTo_S5000000x8_S_d0_1 : S5000000x8.ReducesTo [0, 1] S_
  bcast_S_S5000000x6 : S_.BroadcastsInDim S5000000x6 (![] : Fin 0 → Fin S5000000x6.rank)
  reducesTo_S5000000x6_S_d0_1 : S5000000x6.ReducesTo [0, 1] S_

variable [Facts]

def fn_part1 {F : FTy → Type} [FloatOps F] (main_arg4 : FVec F S5000000 .f32) (main_arg6 : FVec F S5000000x6 .f32) (main_v13 : IVec S_ 1) (main_v16 : IVec S5000000x6 1) : IVec S_ 1 :=
  let main_c_5 : IVec S_ 1 := constantI S_ 1 1#1
  let main_v17 : IVec S_ 1 := (fun x v => Host.reduce IntOp.andi x v reducesTo_S5000000x6_S_d0_1 h_S_) main_v16 main_c_5
  let main_v18 : IVec S_ 1 := andi main_v13 main_v17
  let main_v19 : FVec F S5000000 .f32 := Host.absf main_arg4
  let main_cst_6 : FVec F S_ .f32 := constant S_ .f32 0x7F800000#32
  let main_v20 : FVec F S5000000 .f32 := broadcastInDim S5000000 ![] bcast_S_S5000000 main_cst_6
  let main_v21 : IVec S5000000 1 := cmpf .olt main_v19 main_v20
  let main_c_7 : IVec S_ 1 := constantI S_ 1 1#1
  let main_v22 : IVec S_ 1 := (fun x v => Host.reduce IntOp.andi x v reducesTo_S5000000_S_d0 h_S_) main_v21 main_c_7
  let main_v23 : IVec S_ 1 := andi main_v18 main_v22
  let main_v24 : FVec F S5000000x6 .f32 := Host.absf main_arg6
  let main_cst_8 : FVec F S_ .f32 := constant S_ .f32 0x7F800000#32
  let main_v25 : FVec F S5000000x6 .f32 := broadcastInDim S5000000x6 ![] bcast_S_S5000000x6 main_cst_8
  let main_v26 : IVec S5000000x6 1 := cmpf .olt main_v24 main_v25
  let main_c_9 : IVec S_ 1 := constantI S_ 1 1#1
  let main_v27 : IVec S_ 1 := (fun x v => Host.reduce IntOp.andi x v reducesTo_S5000000x6_S_d0_1 h_S_) main_v26 main_c_9
  let main_v28 : IVec S_ 1 := andi main_v23 main_v27
  main_v28

def fn {F : FTy → Type} [FloatOps F] (main_arg0 : FVec F S5000000 .f32) (main_arg1 : FVec F S5000000 .f32) (main_arg2 : FVec F S5000000x8 .f32) (main_arg3 : FVec F S5000000x6 .f32) (main_arg4 : FVec F S5000000 .f32) (main_arg5 : IVec S5000000 32) (main_arg6 : FVec F S5000000x6 .f32) (main_arg7 : IVec S5000000 32) : IVec S_ 1 :=
  let main_v0 : FVec F S5000000 .f32 := Host.absf main_arg0
  let main_cst : FVec F S_ .f32 := constant S_ .f32 0x7F800000#32
  let main_v1 : FVec F S5000000 .f32 := broadcastInDim S5000000 ![] bcast_S_S5000000 main_cst
  let main_v2 : IVec S5000000 1 := cmpf .olt main_v0 main_v1
  let main_c : IVec S_ 1 := constantI S_ 1 1#1
  let main_v3 : IVec S_ 1 := (fun x v => Host.reduce IntOp.andi x v reducesTo_S5000000_S_d0 h_S_) main_v2 main_c
  let main_v4 : FVec F S5000000 .f32 := Host.absf main_arg1
  let main_cst_0 : FVec F S_ .f32 := constant S_ .f32 0x7F800000#32
  let main_v5 : FVec F S5000000 .f32 := broadcastInDim S5000000 ![] bcast_S_S5000000 main_cst_0
  let main_v6 : IVec S5000000 1 := cmpf .olt main_v4 main_v5
  let main_c_1 : IVec S_ 1 := constantI S_ 1 1#1
  let main_v7 : IVec S_ 1 := (fun x v => Host.reduce IntOp.andi x v reducesTo_S5000000_S_d0 h_S_) main_v6 main_c_1
  let main_v8 : IVec S_ 1 := andi main_v3 main_v7
  let main_v9 : FVec F S5000000x8 .f32 := Host.absf main_arg2
  let main_cst_2 : FVec F S_ .f32 := constant S_ .f32 0x7F800000#32
  let main_v10 : FVec F S5000000x8 .f32 := broadcastInDim S5000000x8 ![] bcast_S_S5000000x8 main_cst_2
  let main_v11 : IVec S5000000x8 1 := cmpf .olt main_v9 main_v10
  let main_c_3 : IVec S_ 1 := constantI S_ 1 1#1
  let main_v12 : IVec S_ 1 := (fun x v => Host.reduce IntOp.andi x v reducesTo_S5000000x8_S_d0_1 h_S_) main_v11 main_c_3
  let main_v13 : IVec S_ 1 := andi main_v8 main_v12
  let main_v14 : FVec F S5000000x6 .f32 := Host.absf main_arg3
  let main_cst_4 : FVec F S_ .f32 := constant S_ .f32 0x7F800000#32
  let main_v15 : FVec F S5000000x6 .f32 := broadcastInDim S5000000x6 ![] bcast_S_S5000000x6 main_cst_4
  let main_v16 : IVec S5000000x6 1 := cmpf .olt main_v14 main_v15
  fn_part1 (F := F) main_arg4 main_arg6 main_v13 main_v16
-- ==== Kernel.lean ====
abbrev S5000000 : Shape := ⟨1, ![5000000]⟩
abbrev S5000000x8 : Shape := ⟨2, ![5000000, 8]⟩
abbrev S5000000x6 : Shape := ⟨2, ![5000000, 6]⟩
abbrev S_ : Shape := ⟨0, ![]⟩
abbrev S5005312x6 : Shape := ⟨2, ![5005312, 6]⟩
abbrev S5005312 : Shape := ⟨1, ![5005312]⟩
abbrev S8192x6 : Shape := ⟨2, ![8192, 6]⟩
abbrev S8192 : Shape := ⟨1, ![8192]⟩
abbrev S50000 : Shape := ⟨1, ![50000]⟩
abbrev S5005312x1 : Shape := ⟨2, ![5005312, 1]⟩

abbrev nBuf : Space → Nat
  | .hbm => 51
  | .vmem => 12
  | .smem => 0
  | _ => 0

abbrev bufTy : (tb : Table) → Fin (tcTables nBuf tb) → BufTy
  | .hbm, ⟨0, _⟩ => ⟨S5000000, .f32⟩
  | .hbm, ⟨1, _⟩ => ⟨S5000000, .f32⟩
  | .hbm, ⟨2, _⟩ => ⟨S5000000x8, .f32⟩
  | .hbm, ⟨3, _⟩ => ⟨S5000000x6, .f32⟩
  | .hbm, ⟨4, _⟩ => ⟨S5000000, .f32⟩
  | .hbm, ⟨5, _⟩ => ⟨S5000000, .i32⟩
  | .hbm, ⟨6, _⟩ => ⟨S5000000x6, .f32⟩
  | .hbm, ⟨7, _⟩ => ⟨S5000000, .i32⟩
  | .hbm, ⟨8, _⟩ => ⟨S_, .i32⟩
  | .hbm, ⟨9, _⟩ => ⟨S_, .f32⟩
  | .hbm, ⟨10, _⟩ => ⟨S5005312x6, .f32⟩
  | .hbm, ⟨11, _⟩ => ⟨S_, .i32⟩
  | .hbm, ⟨12, _⟩ => ⟨S_, .f32⟩
  | .hbm, ⟨13, _⟩ => ⟨S5005312x6, .f32⟩
  | .hbm, ⟨14, _⟩ => ⟨S_, .i32⟩
  | .hbm, ⟨15, _⟩ => ⟨S_, .i32⟩
  | .hbm, ⟨16, _⟩ => ⟨S5005312, .i32⟩
  | .hbm, ⟨17, _⟩ => ⟨S_, .i32⟩
  | .hbm, ⟨18, _⟩ => ⟨S_, .i32⟩
  | .hbm, ⟨19, _⟩ => ⟨S5005312, .i32⟩
  | .hbm, ⟨20, _⟩ => ⟨S5005312, .f32⟩
  | .hbm, ⟨21, _⟩ => ⟨S5005312, .f32⟩
  | .hbm, ⟨22, _⟩ => ⟨S_, .f32⟩
  | .hbm, ⟨23, _⟩ => ⟨S50000, .f32⟩
  | .hbm, ⟨24, _⟩ => ⟨S5005312x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S5005312x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S8192x6, .f32⟩
  | .local _ .vmem, ⟨1, _⟩ => ⟨S8192x6, .f32⟩
  | .local _ .vmem, ⟨2, _⟩ => ⟨S8192x6, .f32⟩
  | .local _ .vmem, ⟨3, _⟩ => ⟨S8192x6, .f32⟩
  | .local _ .vmem, ⟨4, _⟩ => ⟨S8192, .i32⟩
  | .local _ .vmem, ⟨5, _⟩ => ⟨S8192, .i32⟩
  | .local _ .vmem, ⟨6, _⟩ => ⟨S8192, .i32⟩
  | .local _ .vmem, ⟨7, _⟩ => ⟨S8192, .i32⟩
  | .local _ .vmem, ⟨8, _⟩ => ⟨S8192, .f32⟩
  | .local _ .vmem, ⟨9, _⟩ => ⟨S8192, .f32⟩
  | .local _ .vmem, ⟨10, _⟩ => ⟨S8192, .f32⟩
  | .local _ .vmem, ⟨11, _⟩ => ⟨S8192, .f32⟩
  | _, _ => ⟨S5000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_cst_5 : Ref sig .tc := ⟨.hbm, 33, rfl⟩
abbrev main_call4_v0 : Ref sig .tc := ⟨.hbm, 34, rfl⟩
abbrev main_call4_v1 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_call5_v0 : Ref sig .tc := ⟨.hbm, 39, rfl⟩
abbrev main_call5_v1 : Ref sig .tc := ⟨.hbm, 40, rfl⟩
abbrev main_v15 : Ref sig .tc := ⟨.hbm, 41, rfl⟩
abbrev main_v16 : Ref sig .tc := ⟨.hbm, 42, rfl⟩
abbrev main_c_7 : Ref sig .tc := ⟨.hbm, 43, rfl⟩
abbrev main_v17 : Ref sig .tc := ⟨.hbm, 44, rfl⟩
abbrev main_v18 : Ref sig .tc := ⟨.hbm, 45, rfl⟩
abbrev main_cst_8 : Ref sig .tc := ⟨.hbm, 46, rfl⟩
abbrev main_v19 : Ref sig .tc := ⟨.hbm, 47, rfl⟩
abbrev main_cst_9 : Ref sig .tc := ⟨.hbm, 48, rfl⟩
abbrev main_v20 : Ref sig .tc := ⟨.hbm, 49, rfl⟩
abbrev main_v21 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![611], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S5000000x6_S5005312x6_053120_000 : S5000000x6.Pads (![0, 0] : Fin 2 → Nat) ![5312, 0] ![0, 0] S5005312x6
  h_S_ : 0 < S_.numel
  pads_S5000000_S5005312_053120 : S5000000.Pads (![0] : Fin 1 → Nat) ![5312] ![0] S5005312
  inb_S8192x6_S8192x6_0_0 : ∀ a, (![0, 0] : Fin 2 → Nat) a + S8192x6.size a ≤ S8192x6.size a
  h_S8192x6 : 0 < S8192x6.numel
  shapeCasts_S8192x6_S8192x6 : S8192x6.ShapeCasts S8192x6
  reduces_S8192x6_S8192 : S8192x6.Reduces [1] S8192
  inb_S8192_S8192_0 : ∀ a, (![0] : Fin 1 → Nat) a + S8192.size a ≤ S8192.size a
  h_S8192 : 0 < S8192.numel
  shapeCasts_S8192_S8192 : S8192.ShapeCasts S8192
  natLt_1_32 : 1 < 32
  bcast_S_S50000 : S_.BroadcastsInDim S50000 (![] : Fin 0 → Fin S50000.rank)
  bcast_S5005312_S5005312x1_0 : S5005312.BroadcastsInDim S5005312x1 (![0] : Fin 1 → Fin S5005312x1.rank)
  reducesTo_S50000_S_d0 : S50000.ReducesTo [0] S_
  scatter_S50000_S5005312x1_S5005312_n_0_0_1_wf : ScatterDims.WF S50000 S5005312x1 S5005312 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S5005312x6.size a
  hwx0_0 : ∀ i : grid0.Coords, EltTy.bits .f32 = 32 ∨ (Rect.block (s := S5005312x6) S8192x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x6.size a ≤ S5005312x6.size a
  hwx0_1 : ∀ i : grid0.Coords, EltTy.bits .f32 = 32 ∨ (Rect.block (s := S5005312x6) S8192x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S5005312.size a
  hwx0_2 : ∀ i : grid0.Coords, EltTy.bits .i32 = 32 ∨ (Rect.block (s := S5005312) S8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S5005312.size a
  hwx0_3 : ∀ i : grid0.Coords, EltTy.bits .i32 = 32 ∨ (Rect.block (s := S5005312) S8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S5005312.size a
  hwx0_4 : ∀ i : grid0.Coords, EltTy.bits .f32 = 32 ∨ (Rect.block (s := S5005312) S8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S5005312.size a
  hwx0_5 : ∀ i : grid0.Coords, EltTy.bits .f32 = 32 ∨ (Rect.block (s := S5005312) S8192.size (cc0_transform_5 i) (hinb0_5 i)).WholeWords (EltTy.packing .f32)

variable [Facts₀]

def scatter_S50000_S5005312x1_S5005312_n_0_0_1 : ScatterDims S50000 S5005312x1 S5005312 where
  updateWindowDims := []
  insertedWindowDims := [0]
  scatterDimsToOperandDims := [0]
  indexVectorDim := 1
  wf := scatter_S50000_S5005312x1_S5005312_n_0_0_1_wf

abbrev win0_0 : Pipeline.Window sig grid0 :=
  Pipeline.Window.ofSpec (Memref.whole main_v0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S8192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S5000000 : Shape := ⟨1, ![5000000]⟩
abbrev S5000000x8 : Shape := ⟨2, ![5000000, 8]⟩
abbrev S5000000x6 : Shape := ⟨2, ![5000000, 6]⟩
abbrev S_ : Shape := ⟨0, ![]⟩
abbrev S50000 : Shape := ⟨1, ![50000]⟩
abbrev S5000000x1 : Shape := ⟨2, ![5000000, 1]⟩

abbrev nBuf : Space → Nat
  | .hbm => 50
  | .vmem => 0
  | .smem => 0
  | _ => 0

abbrev bufTy : (tb : Table) → Fin (tcTables nBuf tb) → BufTy
  | .hbm, ⟨0, _⟩ => ⟨S5000000, .f32⟩
  | .hbm, ⟨1, _⟩ => ⟨S5000000, .f32⟩
  | .hbm, ⟨2, _⟩ => ⟨S5000000x8, .f32⟩
  | .hbm, ⟨3, _⟩ => ⟨S5000000x6, .f32⟩
  | .hbm, ⟨4, _⟩ => ⟨S5000000, .f32⟩
  | .hbm, ⟨5, _⟩ => ⟨S5000000, .i32⟩
  | .hbm, ⟨6, _⟩ => ⟨S5000000x6, .f32⟩
  | .hbm, ⟨7, _⟩ => ⟨S5000000, .i32⟩
  | .hbm, ⟨8, _⟩ => ⟨S_, .i32⟩
  | .hbm, ⟨9, _⟩ => ⟨S5000000, .i32⟩
  | .hbm, ⟨10, _⟩ => ⟨S5000000, .i1⟩
  | .hbm, ⟨11, _⟩ => ⟨S_, .i32⟩
  | .hbm, ⟨12, _⟩ => ⟨S5000000, .i32⟩
  | .hbm, ⟨13, _⟩ => ⟨S5000000, .i1⟩
  | .hbm, ⟨14, _⟩ => ⟨S5000000, .i1⟩
  | .hbm, ⟨15, _⟩ => ⟨S5000000, .f32⟩
  | .hbm, ⟨16, _⟩ => ⟨S5000000x6, .f32⟩
  | .hbm, ⟨17, _⟩ => ⟨S5000000x6, .f32⟩
  | .hbm, ⟨18, _⟩ => ⟨S_, .f32⟩
  | .hbm, ⟨19, _⟩ => ⟨S5000000, .f32⟩
  | .hbm, ⟨20, _⟩ => ⟨S5000000, .f32⟩
  | .hbm, ⟨21, _⟩ => ⟨S_, .f32⟩
  | .hbm, ⟨22, _⟩ => ⟨S50000, .f32⟩
  | .hbm, ⟨23, _⟩ => ⟨S5000000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S5000000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S5000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_cst_8 : Ref sig .tc := ⟨.hbm, 47, rfl⟩
abbrev main_v25 : Ref sig .tc := ⟨.hbm, 48, rfl⟩
abbrev main_v26 : Ref sig .tc := ⟨.hbm, 49, rfl⟩

abbrev nD : Nat := 1
abbrev τ : Topo := Topo.v7x

variable {F : FTy → Type} [FloatOps F]

class Facts₀ : Prop where
  bcast_S_S5000000 : S_.BroadcastsInDim S5000000 (![] : Fin 0 → Fin S5000000.rank)
  reducesTo_S5000000x6_S5000000_d1 : S5000000x6.ReducesTo [1] S5000000
  h_S_ : 0 < S_.numel
  bcast_S_S50000 : S_.BroadcastsInDim S50000 (![] : Fin 0 → Fin S50000.rank)
  bcast_S5000000_S5000000x1_0 : S5000000.BroadcastsInDim S5000000x1 (![0] : Fin 1 → Fin S5000000x1.rank)
  natLt_1_32 : 1 < 32
  reducesTo_S50000_S_d0 : S50000.ReducesTo [0] S_
  scatter_S50000_S5000000x1_S5000000_n_0_0_1_wf : ScatterDims.WF S50000 S5000000x1 S5000000 [] [0] [0] 1

variable [Facts₀]

def scatter_S50000_S5000000x1_S5000000_n_0_0_1 : ScatterDims S50000 S5000000x1 S5000000 where
  updateWindowDims := []
  insertedWindowDims := [0]
  scatterDimsToOperandDims := [0]
  indexVectorDim := 1
  wf := scatter_S50000_S5000000x1_S5000000_n_0_0_1_wf

class Facts : Prop extends Facts₀ where

variable [Facts]
-- ==== Proof.KernelPads.lean ====
/-
  The arrays the region finds, at the ideal values.

  Before the region the host pads the predictions and the truths with 5312 rows of the converted integer zero, and the two
  integer vectors with 5312 zeros; the region reads the padded arrays.
-/
import proofs.«164376_j45432164057703_1_alg».proof.Proof.Gen.KernelIdeal.Frame
import Idealize.ShloMosaic.Lib.StableHlo.Run
import Idealize.ShloMosaic.PureOps.Ideal
import Idealize.ShloMosaic.Lib.Pipeline.Value

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The float padding value and the integer one. -/
abbrev padF : FVec Ideal S_ .f32 := sitofp (F := Ideal) .f32 (constantI S_ 32 0#32)
abbrev padI : IVec S_ 32 := constantI S_ 32 0#32

/-- The region finds the predictions padded with 5312 rows. -/
theorem predP_eq (c : Dev nD) : (V m c main_v0 : S5005312x6.Idx → EReal)
    = pad S5005312x6 ![0, 0] ![5312, 0] ![0, 0] (m ((c : Thread nD τ).loc main_arg3)) padF pads_S5000000x6_S5005312x6_053120_000 h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The truths, the same. -/
theorem trackP_eq (c : Dev nD) : (V m c main_v1 : S5005312x6.Idx → EReal)
    = pad S5005312x6 ![0, 0] ![5312, 0] ![0, 0] (m ((c : Thread nD τ).loc main_arg6)) padF pads_S5000000x6_S5005312x6_053120_000 h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The particle ids padded with 5312 zeros. -/
theorem pidP_eq (c : Dev nD) : (V m c main_v2 : S5005312.Idx → BitVec 32)
    = pad S5005312 ![0] ![5312] ![0] (m ((c : Thread nD τ).loc main_arg5)) padI pads_S5000000_S5005312_053120 h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The reconstructable flags, the same. -/
theorem reconP_eq (c : Dev nD) : (V m c main_v3 : S5005312.Idx → BitVec 32)
    = pad S5005312 ![0] ![5312] ![0] (m ((c : Thread nD τ).loc main_arg7)) padI pads_S5000000_S5005312_053120 h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

end Cert.KernelIdeal.HostSide

end
-- ==== Proof.RowSpec.lean ====
/-
  The two quantities the object loss takes from one hit (one row), at the ideal values.

  A hit counts when it is reconstructable and belongs to a particle: its weight is 1 when both integer words are
  positive as signed numbers and 0 otherwise.  Its squared distance is the sum over the six track parameters of the
  squared difference between the prediction and the truth.  Whether the 0/1 truth value is converted to a float as an
  unsigned bit, or first widened to 32 bits and then converted as a signed word, the float is the same: a widened bit is
  never negative.  A row whose words are both zero has weight 0, and a row whose predictions and truths are all zero has
  squared distance 0.
-/
import Idealize.ShloMosaic.PureOps.Ideal.Laws
import Idealize.ShloMosaic.Lib.ValueIdx

noncomputable section

open scoped BigOperators

namespace Cert.ObjectLoss

open Idealize.ShloMosaic Idealize.ShloMosaic.ValueIdx

/-- The weight of a hit: 1 when `recon > 0` and `pid > 0` (signed), else 0. -/
def weight (pid recon : BitVec 32) : EReal :=
  FloatOps.uitofp (F := Ideal) .f32 (IntOp.andi (IntOp.cmpi .sgt recon 0#32) (IntOp.cmpi .sgt pid 0#32))

/-- A truth bit widened to 32 bits and read as a signed word is the bit read as an unsigned number. -/
theorem signed_of_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    rcases BitVec.eq_zero_or_eq_one b with h | h <;> subst h <;> decide
  rw [h, Int.cast_natCast]

/-- Both words zero: neither is positive, the weight is 0. -/
theorem weight_zero : weight 0#32 0#32 = 0 := by
  show (((IntOp.andi (IntOp.cmpi .sgt (0#32 : BitVec 32) 0#32) (IntOp.cmpi .sgt (0#32 : BitVec 32) 0#32)).toNat : ℝ) : EReal) = 0
  have h : (IntOp.andi (IntOp.cmpi .sgt (0#32 : BitVec 32) 0#32) (IntOp.cmpi .sgt (0#32 : BitVec 32) 0#32)).toNat = 0 := by decide
  rw [h]
  simp

/-- The squared distance of row r: the six squared differences added. -/
def sqDist {n : ℕ} (pred track : (⟨2, ![n, 6]⟩ : Shape).Idx → EReal) (r : Fin n) : EReal :=
  ∑ j : Fin 6, (pred (ix2 r j) - track (ix2 r j)) * (pred (ix2 r j) - track (ix2 r j))

/-- A row of zeros against a row of zeros is at distance 0. -/
theorem sqDist_zero {n : ℕ} (pred track : (⟨2, ![n, 6]⟩ : Shape).Idx → EReal) (r : Fin n)
    (hp : ∀ j : Fin 6, pred (ix2 r j) = 0) (ht : ∀ j : Fin 6, track (ix2 r j) = 0) : sqDist pred track r = 0 := by
  unfold sqDist
  refine Finset.sum_eq_zero fun j _ => ?_
  rw [hp j, ht j]
  simp

end Cert.ObjectLoss

end
-- ==== Proof.KernelRow.lean ====
/-
  What the kernel body stores for one row of a block, at the ideal values.

  The body loads a block of 8192 rows of predictions and of truths (six columns each) and the rows' two integer words.
  Into the second output it stores each row's weight; into the first, the row's squared distance (the lane sum over the
  six columns of the squared differences, taken from a zero accumulator, which adds nothing) times that weight.
-/
import proofs.«164376_j45432164057703_1_alg».proof.Proof.Gen.KernelIdeal.Skeleton
import proofs.«164376_j45432164057703_1_alg».proof.Proof.RowSpec
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.ObjectLoss

/-- The weight the body stores for a row: the row's weight (the widened truth bit converted as a signed word). -/
theorem pay_weight (pidB reconB : Vec Ideal S8192 .i32) (i : S8192.Idx) :
    (k0_pay1 (F := Ideal) pidB reconB) i = weight (pidB i) (reconB i) := by
  unfold k0_pay1
  simp only [shapeCast_self]
  exact signed_of_bit _

/-- The lane sum over the six columns from the zero accumulator, read at row r. -/
theorem lane_sum (src : FVec Ideal S8192x6 .f32) (h : S8192x6.Reduces [1] S8192) (hφ : FKind.Formats .f32)
    (hacc : (0x00000000#32 : BitVec 32) = FKind.add.neutral .f32 hφ) (r : Fin 8192) :
    multiReduction (F := Ideal) .add [1] S8192 src 0x00000000#32 h hφ hacc (ix1 r) = ∑ j : Fin 6, src (ix2 r j) := by
  refine (Ideal.multiReduction_add_single src 0x00000000#32 h hφ hacc (ix1 r)).trans ?_
  exact Finset.sum_congr rfl fun j _ => congrArg src (funext fun a => Fin.ext (by match a with | ⟨0, _⟩ => rfl | ⟨1, _⟩ => rfl))

/-- The weighted squared distance the body stores for row r. -/
theorem pay_wdist (predB trackB : Vec Ideal S8192x6 .f32) (pidB reconB : Vec Ideal S8192 .i32) (r : Fin 8192) :
    (k0_pay2 (F := Ideal) predB trackB pidB reconB) (ix1 r)
      = sqDist (n := 8192) predB trackB r * weight (pidB (ix1 r)) (reconB (ix1 r)) := by
  unfold k0_pay2
  simp only [shapeCast_self]
  show (multiReduction (F := Ideal) .add [1] S8192 (mulf (subf predB trackB) (subf predB trackB)) 0x00000000#32 _ _ _ (ix1 r))
      * (k0_pay1 (F := Ideal) pidB reconB (ix1 r)) = _
  rw [pay_weight]
  refine congrArg (· * _) ?_
  refine (lane_sum _ _ _ _ r).trans ?_
  rfl

end Cert.KernelIdeal.Row

end
-- ==== Proof.KernelArrays.lean ====
/-
  The two arrays the region leaves, as whole-array functions of the four arrays it reads.

  The grid has 611 points; point t reads rows 8192·t … 8192·t + 8191 of the padded predictions, truths and integer
  words, and writes the same rows of the two outputs: the row's weighted squared distance and the row's weight.  The 611
  blocks tile the 5005312 rows, so after the run entry q of the first output is the weighted squared distance of row q
  and entry q of the second is the weight of row q, for every q.
-/
import proofs.«164376_j45432164057703_1_alg».proof.Proof.Gen.KernelIdeal.Frame
import proofs.«164376_j45432164057703_1_alg».proof.Proof.KernelRow
import Idealize.ShloMosaic.Lib.Pipeline.Value

noncomputable section

open scoped BigOperators

namespace Cert.KernelIdeal.Arrays

open Cert.KernelIdeal Cert.KernelIdeal.Gen Cert.KernelIdeal.Row Cert.ObjectLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Every row's weighted squared distance, over the padded arrays. -/
def wdistAll (predP trackP : S5005312x6.Idx → EReal) (pidP reconP : S5005312.Idx → BitVec 32) : S5005312.Idx → EReal :=
  fun i => sqDist (n := 5005312) predP trackP (i 0) * weight (pidP i) (reconP i)

/-- Every row's weight, over the padded arrays. -/
def weightAll (pidP reconP : S5005312.Idx → BitVec 32) : S5005312.Idx → EReal :=
  fun i => weight (pidP i) (reconP i)

theorem hz1 : (![0] : Fin 1 → Nat) = fun _ => 0 := funext fun a => by fin_cases a; rfl
theorem hz2 : (![0, 0] : Fin 2 → Nat) = fun _ => 0 := funext fun a => by fin_cases a <;> rfl

/-- Row r of a block against row q of the arrays: where the block's rows are the arrays' rows, what the body stores for
    row r is the weighted squared distance of row q. -/
theorem wdist_block (predB trackB : Vec Ideal S8192x6 .f32) (pidB reconB : Vec Ideal S8192 .i32)
    (predP trackP : S5005312x6.Idx → EReal) (pidP reconP : S5005312.Idx → BitVec 32) (r : Fin 8192) (q : Fin 5005312)
    (hpred : ∀ j : Fin 6, predB (ix2 r j) = predP (ix2 q j)) (htrack : ∀ j : Fin 6, trackB (ix2 r j) = trackP (ix2 q j))
    (hpid : pidB (ix1 r) = pidP (ix1 q)) (hrecon : reconB (ix1 r) = reconP (ix1 q)) :
    (k0_pay2 (F := Ideal) predB trackB pidB reconB) (ix1 r) = wdistAll predP trackP pidP reconP (ix1 q) := by
  rw [pay_wdist, hpid, hrecon]
  unfold wdistAll sqDist
  simp only [hpred, htrack]

/-- The same for the weight. -/
theorem weight_block (pidB reconB : Vec Ideal S8192 .i32) (pidP reconP : S5005312.Idx → BitVec 32) (r : Fin 8192) (q : Fin 5005312)
    (hpid : pidB (ix1 r) = pidP (ix1 q)) (hrecon : reconB (ix1 r) = reconP (ix1 q)) :
    (k0_pay1 (F := Ideal) pidB reconB) (ix1 r) = weightAll pidP reconP (ix1 q) := by
  rw [pay_weight, hpid, hrecon]
  rfl

/-- The printed index maps, decided over the grid: every window's block index along the rows is the point's number,
    and the two matrices' block index along the columns is 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val ∧ win0_3.index t (0 : Fin 1) = t.val
    ∧ win0_4.index t (0 : Fin 1) = t.val ∧ win0_5.index t (0 : Fin 1) = t.val :=
  (by decide +kernel : ∀ t : Fin grid0.N, _)

/-- WHAT POINT t WRITES BACK to the first output is block t of the rows' weighted squared distances. -/
theorem flushed4_eq (c : Dev nD) (t : Fin cfg0.N) :
    (dats m 0 c).flushed 4 t = ((cfg0.win 4).blk t).view.read (Elt Ideal)
      (wdistAll (V m c main_v0) (V m c main_v1) (V m c main_v2) (V m c main_v3)) := by
  show (cfg0.win 4).cut (grid0.coords t) ((dats m 0 c).after 4 t) = _
  rw [after0_4]
  unfold out0_4
  rw [View.canon_unit_zero hz1]
  simp only [View.ld_unit_zero (S := S8192x6) hz2, View.ld_unit_zero (S := S8192) hz1]
  obtain ⟨e0, e0', e1, e1', e2, e3, e4, e5⟩ := idx_facts t
  have hN : cfg0.N = 611 := N_0
  have htN : t.val < 611 := hN ▸ t.isLt
  funext j
  obtain ⟨r, rfl⟩ : ∃ r : Fin 8192, j = ix1 r := ⟨j 0, eq_ix1 j⟩
  have hr : r.val < 8192 := r.isLt
  have hq : t.val * 8192 + r.val < 5005312 := by omega
  have e : ((cfg0.win 4).blk t).view.emb (ix1 r) = ix1 (⟨t.val * 8192 + r.val, hq⟩ : Fin 5005312) := by
    funext a; apply Fin.ext
    match a with
    | ⟨0, _⟩ => show win0_4.index t (0 : Fin 1) * 8192 + 1 * r.val = t.val * 8192 + r.val; omega
  show (k0_pay2 (F := Ideal) (iblk m c 0 t) (iblk m c 1 t) (iblk m c 2 t) (iblk m c 3 t)) (ix1 r)
      = wdistAll (V m c main_v0) (V m c main_v1) (V m c main_v2) (V m c main_v3) (((cfg0.win 4).blk t).view.emb (ix1 r))
  rw [e]
  refine wdist_block (iblk m c 0 t) (iblk m c 1 t) (iblk m c 2 t) (iblk m c 3 t) (V m c main_v0) (V m c main_v1) (V m c main_v2) (V m c main_v3)
    r ⟨t.val * 8192 + r.val, hq⟩ (fun j => ?_) (fun j => ?_) ?_ ?_
  · show V m c main_v0 (((cfg0.win 0).blk t).view.emb (ix2 r j)) = V m c main_v0 (ix2 (⟨t.val * 8192 + r.val, hq⟩ : Fin 5005312) j)
    refine congrArg (V m c main_v0) (funext fun a => Fin.ext ?_)
    match a with
    | ⟨0, _⟩ => show win0_0.index t (0 : Fin 2) * 8192 + 1 * r.val = t.val * 8192 + r.val; omega
    | ⟨1, _⟩ => show win0_0.index t (1 : Fin 2) * 6 + 1 * j.val = j.val; omega
  · show V m c main_v1 (((cfg0.win 1).blk t).view.emb (ix2 r j)) = V m c main_v1 (ix2 (⟨t.val * 8192 + r.val, hq⟩ : Fin 5005312) j)
    refine congrArg (V m c main_v1) (funext fun a => Fin.ext ?_)
    match a with
    | ⟨0, _⟩ => show win0_1.index t (0 : Fin 2) * 8192 + 1 * r.val = t.val * 8192 + r.val; omega
    | ⟨1, _⟩ => show win0_1.index t (1 : Fin 2) * 6 + 1 * j.val = j.val; omega
  · show V m c main_v2 (((cfg0.win 2).blk t).view.emb (ix1 r)) = V m c main_v2 (ix1 (⟨t.val * 8192 + r.val, hq⟩ : Fin 5005312))
    refine congrArg (V m c main_v2) (funext fun a => Fin.ext ?_)
    match a with
    | ⟨0, _⟩ => show win0_2.index t (0 : Fin 1) * 8192 + 1 * r.val = t.val * 8192 + r.val; omega
  · show V m c main_v3 (((cfg0.win 3).blk t).view.emb (ix1 r)) = V m c main_v3 (ix1 (⟨t.val * 8192 + r.val, hq⟩ : Fin 5005312))
    refine congrArg (V m c main_v3) (funext fun a => Fin.ext ?_)
    match a with
    | ⟨0, _⟩ => show win0_3.index t (0 : Fin 1) * 8192 + 1 * r.val = t.val * 8192 + r.val; omega

/-- WHAT POINT t WRITES BACK to the second output is block t of the rows' weights. -/
theorem flushed5_eq (c : Dev nD) (t : Fin cfg0.N) :
    (dats m 0 c).flushed 5 t = ((cfg0.win 5).blk t).view.read (Elt Ideal) (weightAll (V m c main_v2) (V m c main_v3)) := by
  show (cfg0.win 5).cut (grid0.coords t) ((dats m 0 c).after 5 t) = _
  rw [after0_5]
  unfold out0_5
  rw [View.canon_unit_zero hz1]
  simp only [View.ld_unit_zero (S := S8192) hz1]
  obtain ⟨e0, e0', e1, e1', e2, e3, e4, e5⟩ := idx_facts t
  have hN : cfg0.N = 611 := N_0
  have htN : t.val < 611 := hN ▸ t.isLt
  funext j
  obtain ⟨r, rfl⟩ : ∃ r : Fin 8192, j = ix1 r := ⟨j 0, eq_ix1 j⟩
  have hr : r.val < 8192 := r.isLt
  have hq : t.val * 8192 + r.val < 5005312 := by omega
  have e : ((cfg0.win 5).blk t).view.emb (ix1 r) = ix1 (⟨t.val * 8192 + r.val, hq⟩ : Fin 5005312) := by
    funext a; apply Fin.ext
    match a with
    | ⟨0, _⟩ => show win0_5.index t (0 : Fin 1) * 8192 + 1 * r.val = t.val * 8192 + r.val; omega
  show (k0_pay1 (F := Ideal) (iblk m c 2 t) (iblk m c 3 t)) (ix1 r)
      = weightAll (V m c main_v2) (V m c main_v3) (((cfg0.win 5).blk t).view.emb (ix1 r))
  rw [e]
  refine weight_block (iblk m c 2 t) (iblk m c 3 t) (V m c main_v2) (V m c main_v3) r ⟨t.val * 8192 + r.val, hq⟩ ?_ ?_
  · show V m c main_v2 (((cfg0.win 2).blk t).view.emb (ix1 r)) = V m c main_v2 (ix1 (⟨t.val * 8192 + r.val, hq⟩ : Fin 5005312))
    refine congrArg (V m c main_v2) (funext fun a => Fin.ext ?_)
    match a with
    | ⟨0, _⟩ => show win0_2.index t (0 : Fin 1) * 8192 + 1 * r.val = t.val * 8192 + r.val; omega
  · show V m c main_v3 (((cfg0.win 3).blk t).view.emb (ix1 r)) = V m c main_v3 (ix1 (⟨t.val * 8192 + r.val, hq⟩ : Fin 5005312))
    refine congrArg (V m c main_v3) (funext fun a => Fin.ext ?_)
    match a with
    | ⟨0, _⟩ => show win0_3.index t (0 : Fin 1) * 8192 + 1 * r.val = t.val * 8192 + r.val; omega

/-- An index of the first output is in point t's block iff its row is in the block's range. -/
theorem mem_blk4 (t : Fin cfg0.N) (i : S5005312.Idx) :
    i ∈ ((cfg0.win 4).blk t).view.set ↔ ∀ a : Fin 1, win0_4.index t a * S8192.size a ≤ (i a).val ∧ (i a).val < win0_4.index t a * S8192.size a + S8192.size a := by
  show i ∈ ((View.whole main_v4_0).slice (win0_4.rect t)).set ↔ _
  rw [View.set_slice_whole, Rect.mem_set_unit]
  exact Iff.rfl

/-- The same for the second output. -/
theorem mem_blk5 (t : Fin cfg0.N) (i : S5005312.Idx) :
    i ∈ ((cfg0.win 5).blk t).view.set ↔ ∀ a : Fin 1, win0_5.index t a * S8192.size a ≤ (i a).val ∧ (i a).val < win0_5.index t a * S8192.size a + S8192.size a := by
  show i ∈ ((View.whole main_v4_1).slice (win0_5.rect t)).set ↔ _
  rw [View.set_slice_whole, Rect.mem_set_unit]
  exact Iff.rfl

/-- Row q of the first output is in the block of point q / 8192. -/
theorem cover4 (i : S5005312.Idx) : ∃ t : Fin cfg0.N, (cfg0.win 4).flush t = true ∧ i ∈ ((cfg0.win 4).blk t).view.set := by
  have hi : (i 0).val < 5005312 := (i 0).isLt
  have hN : cfg0.N = 611 := N_0
  have ht : (i 0).val / 8192 < cfg0.N := by rw [hN]; omega
  obtain ⟨e0, e0', e1, e1', e2, e3, e4, e5⟩ := idx_facts ⟨(i 0).val / 8192, ht⟩
  refine ⟨⟨(i 0).val / 8192, ht⟩, flush0_4 _, ?_⟩
  rw [mem_blk4]
  intro a
  match a with
  | ⟨0, _⟩ =>
    show win0_4.index ⟨(i 0).val / 8192, ht⟩ (0 : Fin 1) * 8192 ≤ (i 0).val ∧ (i 0).val < win0_4.index ⟨(i 0).val / 8192, ht⟩ (0 : Fin 1) * 8192 + 8192
    rw [e4]
    show (i 0).val / 8192 * 8192 ≤ (i 0).val ∧ (i 0).val < (i 0).val / 8192 * 8192 + 8192
    omega

/-- The same for the second output. -/
theorem cover5 (i : S5005312.Idx) : ∃ t : Fin cfg0.N, (cfg0.win 5).flush t = true ∧ i ∈ ((cfg0.win 5).blk t).view.set := by
  have hi : (i 0).val < 5005312 := (i 0).isLt
  have hN : cfg0.N = 611 := N_0
  have ht : (i 0).val / 8192 < cfg0.N := by rw [hN]; omega
  obtain ⟨e0, e0', e1, e1', e2, e3, e4, e5⟩ := idx_facts ⟨(i 0).val / 8192, ht⟩
  refine ⟨⟨(i 0).val / 8192, ht⟩, flush0_5 _, ?_⟩
  rw [mem_blk5]
  intro a
  match a with
  | ⟨0, _⟩ =>
    show win0_5.index ⟨(i 0).val / 8192, ht⟩ (0 : Fin 1) * 8192 ≤ (i 0).val ∧ (i 0).val < win0_5.index ⟨(i 0).val / 8192, ht⟩ (0 : Fin 1) * 8192 + 8192
    rw [e5]
    show (i 0).val / 8192 * 8192 ≤ (i 0).val ∧ (i 0).val < (i 0).val / 8192 * 8192 + 8192
    omega

/-- THE FIRST OUTPUT after the run: every row's weighted squared distance. -/
theorem final4 (c : Dev nD) : (dats m 0 c).arrAt 4 cfg0.N = wdistAll (V m c main_v0) (V m c main_v1) (V m c main_v2) (V m c main_v3) :=
  (dats m 0 c).arrAt_eq_of_cover 4 (wdistAll (V m c main_v0) (V m c main_v1) (V m c main_v2) (V m c main_v3))
    (fun t _ => flushed4_eq m c t) cover4

/-- THE SECOND OUTPUT after the run: every row's weight. -/
theorem final5 (c : Dev nD) : (dats m 0 c).arrAt 5 cfg0.N = weightAll (V m c main_v2) (V m c main_v3) :=
  (dats m 0 c).arrAt_eq_of_cover 5 (weightAll (V m c main_v2) (V m c main_v3)) (fun t _ => flushed5_eq m c t) cover5

end Cert.KernelIdeal.Arrays

end
-- ==== Proof.LossTail.lean ====
/-
  From the per-particle sums and counts to the loss, as one function.

  Both programs end the same way: a particle is present when its count is positive; a present particle's mean is its sum
  divided by its count (the divisor is 1 where the particle is absent, and the quotient is then replaced by 0); the loss is
  100 times the sum of the means divided by the number of present particles.  The function is only ever applied to
  the two vectors, never opened: equal sums and counts give equal losses.
-/
import Idealize.ShloMosaic.PureOps.Ideal

noncomputable section

namespace Cert.ObjectLoss

open Idealize.ShloMosaic

/-- The particles' vectors, and a scalar. -/
abbrev SP : Shape := ⟨1, ![50000]⟩
abbrev S0 : Shape := ⟨0, ![]⟩

/-- The loss from the per-particle sums and counts. -/
def lossTail (hb : S0.BroadcastsInDim SP (![] : Fin 0 → Fin SP.rank)) (hr : SP.ReducesTo [0] S0) (h0 : 0 < S0.numel) (h32 : 1 < 32)
    (sums counts : FVec Ideal SP .f32) : FVec Ideal S0 .f32 :=
  Host.divf (F := Ideal)
    (mulf (constant (F := Ideal) S0 .f32 0x42C80000#32)
      (Host.reduceAdd (F := Ideal)
        (select (cmpf (F := Ideal) .ogt counts (broadcastInDim SP ![] hb (constant (F := Ideal) S0 .f32 0x00000000#32)))
          (Host.divf (F := Ideal) sums
            (select (cmpf (F := Ideal) .ogt counts (broadcastInDim SP ![] hb (constant (F := Ideal) S0 .f32 0x00000000#32))) counts
              (broadcastInDim SP ![] hb (constant (F := Ideal) S0 .f32 0x3F800000#32))))
          (broadcastInDim SP ![] hb (constant (F := Ideal) S0 .f32 0x00000000#32)))
        (constant (F := Ideal) S0 .f32 0x00000000#32) hr h0))
    (sitofp (F := Ideal) .f32
      (Host.reduce IntOp.addi
        (extui 32 (cmpf (F := Ideal) .ogt counts (broadcastInDim SP ![] hb (constant (F := Ideal) S0 .f32 0x00000000#32))) h32)
        (constantI S0 32 0#32) hr h0))

end Cert.ObjectLoss

end
-- ==== Proof.KernelTail.lean ====
/-
  The host lines after the region, at the ideal values.

  After the region the host accumulates the region's two outputs into 50000 particle buckets by the padded particle ids
  and finishes with the shared tail: whatever the three buffers hold, the program's result is the loss of the two
  accumulations.  The lines come in five stretches (the two selections are calls of one helper function); each stretch is
  read by itself, as what it leaves in the buffers the next stretches read, and the five readings are then composed.
-/
import proofs.«164376_j45432164057703_1_alg».proof.Proof.Gen.KernelIdeal.Launch
import proofs.«164376_j45432164057703_1_alg».proof.Proof.LossTail
import Idealize.ShloMosaic.Lib.StableHlo.Run

noncomputable section

namespace Cert.KernelIdeal.HostSide

open Cert.KernelIdeal Cert.KernelIdeal.Gen Cert.ObjectLoss
open Idealize.ShloMosaic Idealize.ShloMosaic.TcCoe Idealize.SL.Sem Idealize.ShloMosaic.StableHlo

/-- The loss of two per-row arrays accumulated into the particle buckets by a vector of ids. -/
def lossOf (ids : IVec S5005312 32) (a b : FVec Ideal S5005312 .f32) : FVec Ideal S_ .f32 :=
  lossTail bcast_S_S50000 reducesTo_S50000_S_d0 h_S_ natLt_1_32
    (Host.scatterAdd (F := Ideal) scatter_S50000_S5005312x1_S5005312_n_0_0_1
      (broadcastInDim S50000 ![] bcast_S_S50000 (constant (F := Ideal) S_ .f32 0x00000000#32))
      (broadcastInDim S5005312x1 ![0] bcast_S5005312_S5005312x1_0 ids) a)
    (Host.scatterAdd (F := Ideal) scatter_S50000_S5005312x1_S5005312_n_0_0_1
      (broadcastInDim S50000 ![] bcast_S_S50000 (constant (F := Ideal) S_ .f32 0x00000000#32))
      (broadcastInDim S5005312x1 ![0] bcast_S5005312_S5005312x1_0 ids) b)

/-- Operations one after the other: the second list runs on what the first leaves. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

section
variable (V : Valuation τ sig (Elt Ideal))

/-! ### The first stretch: the two accumulations, which particles are present, and the constant 1 -/

theorem s0_sums : StableHlo.after hostOps1 V (Proc.devRef .tc main_v7)
    = Host.scatterAdd (F := Ideal) scatter_S50000_S5005312x1_S5005312_n_0_0_1
        (broadcastInDim S50000 ![] bcast_S_S50000 (constant (F := Ideal) S_ .f32 0x00000000#32))
        (broadcastInDim S5005312x1 ![0] bcast_S5005312_S5005312x1_0 (V (Proc.devRef .tc main_v2))) (V (Proc.devRef .tc main_v4_0)) := by
  after_results_simp <;> rfl

theorem s0_counts : StableHlo.after hostOps1 V (Proc.devRef .tc main_v10)
    = Host.scatterAdd (F := Ideal) scatter_S50000_S5005312x1_S5005312_n_0_0_1
        (broadcastInDim S50000 ![] bcast_S_S50000 (constant (F := Ideal) S_ .f32 0x00000000#32))
        (broadcastInDim S5005312x1 ![0] bcast_S5005312_S5005312x1_0 (V (Proc.devRef .tc main_v2))) (V (Proc.devRef .tc main_v4_1)) := by
  after_results_simp <;> rfl

theorem s0_present : StableHlo.after hostOps1 V (Proc.devRef .tc main_v12)
    = cmpf (F := Ideal) .ogt
        (Host.scatterAdd (F := Ideal) scatter_S50000_S5005312x1_S5005312_n_0_0_1
          (broadcastInDim S50000 ![] bcast_S_S50000 (constant (F := Ideal) S_ .f32 0x00000000#32))
          (broadcastInDim S5005312x1 ![0] bcast_S5005312_S5005312x1_0 (V (Proc.devRef .tc main_v2))) (V (Proc.devRef .tc main_v4_1)))
        (broadcastInDim S50000 ![] bcast_S_S50000 (constant (F := Ideal) S_ .f32 0x00000000#32)) := by
  after_results_simp <;> rfl

theorem s0_one : StableHlo.after hostOps1 V (Proc.devRef .tc main_cst_5) = constant (F := Ideal) S_ .f32 0x3F800000#32 := by
  after_results_simp <;> rfl

/-! ### The second stretch: the divisor (the count where present, else 1) -/

theorem s1_divisor : StableHlo.after hostOps1_1 V (Proc.devRef .tc main_v13)
    = select (V (Proc.devRef .tc main_v12)) (V (Proc.devRef .tc main_v10)) (broadcastInDim S50000 ![] bcast_S_S50000 (V (Proc.devRef .tc main_cst_5))) := by
  after_results_simp <;> rfl

theorem s1_present : StableHlo.after hostOps1_1 V (Proc.devRef .tc main_v12) = V (Proc.devRef .tc main_v12) := by
  after_results_simp <;> rfl

theorem s1_sums : StableHlo.after hostOps1_1 V (Proc.devRef .tc main_v7) = V (Proc.devRef .tc main_v7) := by
  after_results_simp <;> rfl

/-! ### The third stretch: the quotient, and the constant 0 -/

theorem s2_quot : StableHlo.after hostOps1_2 V (Proc.devRef .tc main_v14)
    = Host.divf (F := Ideal) (s := S50000) (φ := .f32) (V (Proc.devRef .tc main_v7)) (V (Proc.devRef .tc main_v13)) := by
  after_results_simp <;> rfl

theorem s2_zero : StableHlo.after hostOps1_2 V (Proc.devRef .tc main_cst_6) = constant (F := Ideal) S_ .f32 0x00000000#32 := by
  after_results_simp <;> rfl

theorem s2_present : StableHlo.after hostOps1_2 V (Proc.devRef .tc main_v12) = V (Proc.devRef .tc main_v12) := by
  after_results_simp <;> rfl

/-! ### The fourth stretch: the means (the quotient where present, else 0) -/

theorem s3_means : StableHlo.after hostOps1_3 V (Proc.devRef .tc main_v15)
    = select (V (Proc.devRef .tc main_v12)) (V (Proc.devRef .tc main_v14)) (broadcastInDim S50000 ![] bcast_S_S50000 (V (Proc.devRef .tc main_cst_6))) := by
  after_results_simp <;> rfl

theorem s3_present : StableHlo.after hostOps1_3 V (Proc.devRef .tc main_v12) = V (Proc.devRef .tc main_v12) := by
  after_results_simp <;> rfl

/-! ### The last stretch: 100 times the sum of the means over the number of present particles -/

theorem s4_result : StableHlo.after hostOps1_4 V (Proc.devRef .tc main_v21)
    = Host.divf (F := Ideal)
        (mulf (constant (F := Ideal) S_ .f32 0x42C80000#32)
          (Host.reduceAdd (F := Ideal) (V (Proc.devRef .tc main_v15)) (constant (F := Ideal) S_ .f32 0x00000000#32) reducesTo_S50000_S_d0 h_S_))
        (sitofp (F := Ideal) .f32
          (Host.reduce IntOp.addi (extui 32 (V (Proc.devRef .tc main_v12)) natLt_1_32) (constantI S_ 32 0#32) reducesTo_S50000_S_d0 h_S_)) := by
  after_results_simp <;> rfl

end

/-- THE LINES AFTER THE REGION, over any contents: the loss of what the two outputs' buffers hold, accumulated by what the
    padded ids' buffer holds. -/
theorem tail_of (W : Valuation τ sig (Elt Ideal)) :
    StableHlo.after (List.flatten [hostOps1, hostOps1_1, hostOps1_2, hostOps1_3, hostOps1_4]) W (Proc.devRef .tc main_v21)
      = lossOf (W (Proc.devRef .tc main_v2)) (W (Proc.devRef .tc main_v4_0)) (W (Proc.devRef .tc main_v4_1)) := by
  rw [show List.flatten [hostOps1, hostOps1_1, hostOps1_2, hostOps1_3, hostOps1_4] = hostOps1 ++ (hostOps1_1 ++ (hostOps1_2 ++ (hostOps1_3 ++ hostOps1_4))) from by
    simp only [List.flatten_cons, List.flatten_nil, List.append_nil]]
  rw [after_append, after_append, after_append, after_append]
  rw [s4_result, s3_means, s3_present, s2_quot, s2_zero, s2_present, s1_divisor, s1_present, s1_sums, s0_sums, s0_counts, s0_present, s0_one]
  rfl

end Cert.KernelIdeal.HostSide

end
-- ==== Proof.KernelHost.lean ====
/-
  The kernel program's result, at the ideal values.

  The region leaves the padded rows' weighted squared distances and weights in its two outputs and the padded ids where
  they were; the host lines after it turn what those three buffers hold into the loss.  So the program's result is the
  loss of the padded rows' weighted squared distances and weights accumulated by the padded ids, and the arguments end
  unchanged.
-/
import proofs.«164376_j45432164057703_1_alg».proof.Proof.Gen.KernelIdeal.Frame
import proofs.«164376_j45432164057703_1_alg».proof.Proof.KernelArrays
import proofs.«164376_j45432164057703_1_alg».proof.Proof.KernelTail
import Idealize.ShloMosaic.Lib.Pipeline.Value

noncomputable section

namespace Cert.KernelIdeal.HostSide

open Cert.KernelIdeal Cert.KernelIdeal.Gen Cert.KernelIdeal.Arrays Cert.ObjectLoss
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- THE RESULT of the program: the loss of the padded rows' weighted squared distances and weights. -/
theorem result_eq (c : Dev nD) :
    Pipeline.afterTail₀ cfgs (dats m) 0 (V0 m) [hostOps1, hostOps1_1, hostOps1_2, hostOps1_3, hostOps1_4] c main_v21
      = lossOf (V m c main_v2) (wdistAll (V m c main_v0) (V m c main_v1) (V m c main_v2) (V m c main_v3))
          (weightAll (V m c main_v2) (V m c main_v3)) := by
  unfold Pipeline.afterTail₀
  refine (tail_of _).trans ?_
  have e2 := (Pipeline.withArrays_arr spec0 launch0.win.arr_inj c (V0 m c) (fun w => (dats m 0 c).arrAt w cfg0.N) 2).trans
    (((dats m 0 c).arrAt_in 2 rfl cfg0.N).trans (A_eq m c 2))
  have e4 := (Pipeline.withArrays_arr spec0 launch0.win.arr_inj c (V0 m c) (fun w => (dats m 0 c).arrAt w cfg0.N) 4).trans (final4 m c)
  have e5 := (Pipeline.withArrays_arr spec0 launch0.win.arr_inj c (V0 m c) (fun w => (dats m 0 c).arrAt w cfg0.N) 5).trans (final5 m c)
  exact congr (congr (congrArg lossOf e2) e4) e5

/-- The run, read: the result at that loss, the arguments unchanged. -/
theorem run : θ_run defs (onTc (τ := τ) (main (F := Ideal))) ⟨m, fun _ => 0, ρ⟩ fun r => ∀ c : Dev nD,
      r.2.mem ((c.tc : Thread nD τ).loc main_v21)
        = lossOf (V m c main_v2) (wdistAll (V m c main_v0) (V m c main_v1) (V m c main_v2) (V m c main_v3))
            (weightAll (V m c main_v2) (V m c main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.HostSide

end
-- ==== Proof.RefStages.lean ====
/-
  The reference's two per-row arrays, read at a row, at the ideal values.

  The reference converts the truth bit `recon > 0 ∧ pid > 0` to a float directly: row p of that array is the row's
  weight.  It sums the six squared differences of row p from a zero initial value, which adds nothing, and multiplies by
  the weight: row p of the product is the row's weighted squared distance.
-/
import proofs.«164376_j45432164057703_1_alg».proof.Proof.RefRead
import proofs.«164376_j45432164057703_1_alg».proof.Proof.RowSpec
import Idealize.ShloMosaic.Lib.ValueIdx
import Idealize.ShloMosaic.PureOps.Ideal.Laws

noncomputable section

open scoped BigOperators

namespace Cert.ReferenceIdeal.Stages

open Cert.ReferenceIdeal Cert.ReferenceIdeal.Gen Cert.ReferenceIdeal.ReadP Cert.ObjectLoss
open Idealize.ShloMosaic Idealize.ShloMosaic.ValueIdx

/-- Row p of the reference's weights. -/
theorem weight_row (pid recon : (⟨S5000000, .i32⟩ : BufTy).Contents (Elt Ideal)) (p : Fin 5000000) :
    val_main_v5 (F := Ideal) pid recon (ix1 p) = weight (pid (ix1 p)) (recon (ix1 p)) := by
  rw [val_main_v5_apply, val_main_v4_apply, val_main_v1_apply, val_main_v3_apply, val_main_v0_apply, val_main_v2_apply,
    val_main_c_apply, val_main_c_0_apply]
  rfl

/-- Row p of the reference's squared distances. -/
theorem sqDist_row (pred track : (⟨S5000000x6, .f32⟩ : BufTy).Contents (Elt Ideal)) (p : Fin 5000000) :
    val_main_v8 (F := Ideal) pred track (ix1 p) = sqDist (n := 5000000) pred track p := by
  rw [val_main_v8_apply, val_main_cst_apply]
  show Ideal.ofBits .f32 0x00000000#32 + _ = _
  rw [Ideal.ofBits_zero_f32, zero_add]
  unfold sqDist
  refine Finset.sum_congr rfl fun j _ => ?_
  rw [val_main_v7_apply, val_main_v6_apply]
  have e : idx_main_v8 (ix1 p) j = ix2 p j := funext fun a => Fin.ext (by match a with | ⟨0, _⟩ => rfl | ⟨1, _⟩ => rfl)
  rw [e]
  rfl

/-- Row p of the reference's weighted squared distances. -/
theorem wdist_row (pred : (⟨S5000000x6, .f32⟩ : BufTy).Contents (Elt Ideal)) (pid : (⟨S5000000, .i32⟩ : BufTy).Contents (Elt Ideal))
    (track : (⟨S5000000x6, .f32⟩ : BufTy).Contents (Elt Ideal)) (recon : (⟨S5000000, .i32⟩ : BufTy).Contents (Elt Ideal)) (p : Fin 5000000) :
    val_main_v9 (F := Ideal) pred pid track recon (ix1 p)
      = sqDist (n := 5000000) pred track p * weight (pid (ix1 p)) (recon (ix1 p)) := by
  rw [val_main_v9_apply, sqDist_row, weight_row]
  rfl

end Cert.ReferenceIdeal.Stages

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibPadReads.lean ====
/-
  Reads of padded arrays, of columns, and a sum whose tail vanishes.

  A vector [n] or a matrix [n, b] followed by k entries (rows) of a padding value reads, below n, as the original and,
  from n on, as the padding value.  A vector laid down a column [n, 1] and a column repeated along b columns read their
  entry p at row p.  The integer zero converted to a float is the real zero at the ideal values.  A sum over a + b
  positions whose last b terms are zero is the sum over the first a.
-/
import Idealize.ShloMosaic.PureOps.Ideal.Laws
import Idealize.ShloMosaic.Lib.KernelVsHost
import Idealize.ShloMosaic.Lib.Pipeline.Value
import Idealize.ShloMosaic.Lib.ValueIdx
import Mathlib.Algebra.BigOperators.Fin

noncomputable section

open scoped BigOperators

namespace Idealize.ShloMosaic.PadReads

open Idealize.ShloMosaic Idealize.ShloMosaic.ValueIdx

variable {α : Type}

/-- The padding value: the integer zero converted is the real zero. -/
theorem pad_value (i : (⟨0, ![]⟩ : Shape).Idx) : sitofp (F := Ideal) .f32 (constantI ⟨0, ![]⟩ 32 0#32) i = 0 := by
  show (((0#32 : BitVec 32).toInt : ℝ) : EReal) = 0
  simp

/-- A vector [n] laid down a column [n, 1], read at (p, u): the vector's entry p. -/
theorem col_apply {n : ℕ} (hn : n ≠ 1) (h : (⟨1, ![n]⟩ : Shape).BroadcastsInDim ⟨2, ![n, 1]⟩ ![0])
    (y : (⟨1, ![n]⟩ : Shape).Idx → α) (p : Fin n) (u : Fin 1) :
    broadcastInDim ⟨2, ![n, 1]⟩ ![0] h y (ix2 p u) = y (ix1 p) :=
  broadcastInDim_apply ![0] h y (ix2 p u) (ix1 p) fun a => by
    match a with
    | ⟨0, _⟩ => show p.val = if n = 1 then 0 else p.val; rw [if_neg hn]

/-- A column [n, 1] repeated along b columns, read at (p, e): the column's entry p. -/
theorem cols_apply {n b : ℕ} (hn : n ≠ 1) (h : (⟨2, ![n, 1]⟩ : Shape).BroadcastsInDim ⟨2, ![n, b]⟩ ![0, 1])
    (y : (⟨2, ![n, 1]⟩ : Shape).Idx → α) (p : Fin n) (e : Fin b) :
    broadcastInDim ⟨2, ![n, b]⟩ ![0, 1] h y (ix2 p e) = y (ix2 p (0 : Fin 1)) :=
  broadcastInDim_apply ![0, 1] h y (ix2 p e) (ix2 p (0 : Fin 1)) fun a => by
    match a with
    | ⟨0, _⟩ => show p.val = if n = 1 then 0 else p.val; rw [if_neg hn]
    | ⟨1, _⟩ => show 0 = if (1 : ℕ) = 1 then 0 else e.val; rw [if_pos rfl]

/-- A vector [n] followed by k entries of padding, read below n: the vector. -/
theorem padv_head {n k N : ℕ} {u : Shape} (h : (⟨1, ![n]⟩ : Shape).Pads ![0] ![k] ![0] ⟨1, ![N]⟩) (hu : 0 < u.numel)
    (x : (⟨1, ![n]⟩ : Shape).Idx → α) (v : u.Idx → α) (q : Fin N) (p : Fin n) (hq : q.val = p.val) :
    pad ⟨1, ![N]⟩ ![0] ![k] ![0] x v h hu (ix1 q) = x (ix1 p) :=
  pad_apply_of_inside ![0] ![k] ![0] x v h hu (ix1 q) (ix1 p) fun a => by
    match a with
    | ⟨0, _⟩ => show q.val = 0 + p.val * (0 + 1); omega

/-- … read from n on: the padding value. -/
theorem padv_tail {n k N : ℕ} {u : Shape} (h : (⟨1, ![n]⟩ : Shape).Pads ![0] ![k] ![0] ⟨1, ![N]⟩) (hu : 0 < u.numel)
    (x : (⟨1, ![n]⟩ : Shape).Idx → α) (v : u.Idx → α) (q : Fin N) (hq : n ≤ q.val) :
    pad ⟨1, ![N]⟩ ![0] ![k] ![0] x v h hu (ix1 q) = v (Shape.Idx.first hu) :=
  pad_apply_of_not_inside ![0] ![k] ![0] x v h hu (ix1 q) 0 fun hin => by
    have h3 : (q.val - 0) / (0 + 1) < n := hin.2.2
    omega

/-- A matrix [n, b] followed by k rows of padding, read at a row below n: the matrix. -/
theorem padm_head {n b k N : ℕ} {u : Shape} (h : (⟨2, ![n, b]⟩ : Shape).Pads ![0, 0] ![k, 0] ![0, 0] ⟨2, ![N, b]⟩) (hu : 0 < u.numel)
    (x : (⟨2, ![n, b]⟩ : Shape).Idx → α) (v : u.Idx → α) (q : Fin N) (p : Fin n) (hq : q.val = p.val) (e : Fin b) :
    pad ⟨2, ![N, b]⟩ ![0, 0] ![k, 0] ![0, 0] x v h hu (ix2 q e) = x (ix2 p e) :=
  pad_apply_of_inside ![0, 0] ![k, 0] ![0, 0] x v h hu (ix2 q e) (ix2 p e) fun a => by
    match a with
    | ⟨0, _⟩ => show q.val = 0 + p.val * (0 + 1); omega
    | ⟨1, _⟩ => show e.val = 0 + e.val * (0 + 1); omega

/-- … read at a row from n on: the padding value. -/
theorem padm_tail {n b k N : ℕ} {u : Shape} (h : (⟨2, ![n, b]⟩ : Shape).Pads ![0, 0] ![k, 0] ![0, 0] ⟨2, ![N, b]⟩) (hu : 0 < u.numel)
    (x : (⟨2, ![n, b]⟩ : Shape).Idx → α) (v : u.Idx → α) (q : Fin N) (hq : n ≤ q.val) (e : Fin b) :
    pad ⟨2, ![N, b]⟩ ![0, 0] ![k, 0] ![0, 0] x v h hu (ix2 q e) = v (Shape.Idx.first hu) :=
  pad_apply_of_not_inside ![0, 0] ![k, 0] ![0, 0] x v h hu (ix2 q e) 0 fun hin => by
    have h3 : (q.val - 0) / (0 + 1) < n := hin.2.2
    omega

/-- A sum over a + b positions whose last b terms vanish is the sum over the first a. -/
theorem sum_drop_tail {M : Type*} [AddCommMonoid M] {a b : ℕ} (f : Fin (a + b) → M) (hz : ∀ p : Fin b, f (Fin.natAdd a p) = 0) :
    ∑ q, f q = ∑ p : Fin a, f (Fin.castAdd b p) := by
  rw [Fin.sum_univ_add, Finset.sum_eq_zero (fun p _ => hz p), add_zero]

end Idealize.ShloMosaic.PadReads

end
-- ==== Proof.LibScatterVecDropTail.lean ====
/-
  An accumulating scatter of scalars whose last k updates are zero.

  Scalars accumulated into a [C] operand by a column of n + k indices, when the last k updates are zero, give the same
  vector as the first n updates accumulated by the first n indices: entry r of either is the operand's entry plus the sum
  over the positions whose index word reads r, and a zero update adds nothing wherever it is sent.  Stated for any sizes,
  so that the sum is never taken over a concrete index set; a certificate puts its sizes in at the end (n + k against
  the padded extent by arithmetic on literals).
-/
import proofs.«164376_j45432164057703_1_alg».proof.Proof.LibScatterAddRows
import proofs.«164376_j45432164057703_1_alg».proof.Proof.LibPadReads

noncomputable section

open scoped BigOperators

namespace Idealize.ShloMosaic.ScatterVecDropTail

open Idealize.ShloMosaic Idealize.ShloMosaic.ValueIdx Idealize.ShloMosaic.PadReads

/-- Scalars accumulated by a column of n + k indices, the last k updates zero, against the first n updates accumulated
    by the first n indices: the same vector. -/
theorem scatter_vec_drop_tail {C n k w : ℕ}
    (wfK : ScatterDims.WF ⟨1, ![C]⟩ ⟨2, ![n + k, 1]⟩ ⟨1, ![n + k]⟩ [] [0] [0] 1)
    (wfR : ScatterDims.WF ⟨1, ![C]⟩ ⟨2, ![n, 1]⟩ ⟨1, ![n]⟩ [] [0] [0] 1)
    (z : (⟨1, ![C]⟩ : Shape).Idx → EReal)
    (idxK : IVec ⟨2, ![n + k, 1]⟩ w) (idxR : IVec ⟨2, ![n, 1]⟩ w)
    (updK : (⟨1, ![n + k]⟩ : Shape).Idx → EReal) (updR : (⟨1, ![n]⟩ : Shape).Idx → EReal)
    (hidx : ∀ p : Fin n, idxK (ix2 (Fin.castAdd k p) (0 : Fin 1)) = idxR (ix2 p (0 : Fin 1)))
    (hupd : ∀ p : Fin n, updK (ix1 (Fin.castAdd k p)) = updR (ix1 p))
    (htail : ∀ p : Fin k, updK (ix1 (Fin.natAdd n p)) = 0) :
    Host.scatterAdd (F := Ideal) (φ := .f32) (⟨[], [0], [0], 1, wfK⟩ : ScatterDims ⟨1, ![C]⟩ ⟨2, ![n + k, 1]⟩ ⟨1, ![n + k]⟩) z idxK updK
      = Host.scatterAdd (F := Ideal) (φ := .f32) (⟨[], [0], [0], 1, wfR⟩ : ScatterDims ⟨1, ![C]⟩ ⟨2, ![n, 1]⟩ ⟨1, ![n]⟩) z idxR updR := by
  show Ideal.hostScatterAdd (⟨[], [0], [0], 1, wfK⟩ : ScatterDims ⟨1, ![C]⟩ ⟨2, ![n + k, 1]⟩ ⟨1, ![n + k]⟩) z idxK updK
      = Ideal.hostScatterAdd (⟨[], [0], [0], 1, wfR⟩ : ScatterDims ⟨1, ![C]⟩ ⟨2, ![n, 1]⟩ ⟨1, ![n]⟩) z idxR updR
  funext i
  obtain ⟨r, rfl⟩ : ∃ r : Fin C, i = ix1 r := ⟨i 0, eq_ix1 i⟩
  rw [ScatterAddRows.scatterAdd_vec_apply, ScatterAddRows.scatterAdd_vec_apply]
  refine congrArg (z (ix1 r) + ·) ?_
  refine (sum_drop_tail (a := n) (b := k) _ fun p => ?_).trans (Finset.sum_congr rfl fun p _ => ?_)
  · -- an appended update adds zero wherever it is sent
    rw [htail p]
    exact ite_self _
  · -- one of the first n updates: the same destination and the same value
    rw [hidx p, hupd p]

end Idealize.ShloMosaic.ScatterVecDropTail

end
-- ==== Proof.Bridge.lean ====
/-
  The kernel's padded accumulation against the reference's, at the ideal values.

  The kernel accumulates 5005312 = 5000000 + 5312 per-row values into the particle buckets; the reference accumulates the
  first 5000000.  Below row 5000000 the padded arrays are the arguments, so a row's id, weight and squared distance are
  the same on both sides.  From row 5000000 on the padded words are zero, the weight of such a row is 0, and both per-row
  values (the weight, and the squared distance times the weight) are 0: those rows add nothing to the bucket they are
  sent to.  So the per-particle sums agree, the per-particle counts agree, and the shared tail gives the same loss.
-/
import proofs.«164376_j45432164057703_1_alg».proof.Proof.KernelHost
import proofs.«164376_j45432164057703_1_alg».proof.Proof.KernelPads
import proofs.«164376_j45432164057703_1_alg».proof.Proof.RefStages
import proofs.«164376_j45432164057703_1_alg».proof.Proof.LibScatterVecDropTail
import proofs.«164376_j45432164057703_1_alg».proof.Proof.LibPadReads

noncomputable section

open scoped BigOperators

namespace Cert.Bridge

open Cert.ObjectLoss Cert.KernelIdeal.Arrays Cert.KernelIdeal.HostSide
open Idealize.ShloMosaic Idealize.ShloMosaic.ValueIdx Idealize.ShloMosaic.PadReads Idealize.ShloMosaic.ScatterVecDropTail

/-- Two rows with the same six predictions and truths are at the same squared distance. -/
theorem sqDist_congr {n n' : ℕ} (pred track : (⟨2, ![n, 6]⟩ : Shape).Idx → EReal) (pred' track' : (⟨2, ![n', 6]⟩ : Shape).Idx → EReal)
    (r : Fin n) (r' : Fin n') (hp : ∀ j : Fin 6, pred (ix2 r j) = pred' (ix2 r' j)) (ht : ∀ j : Fin 6, track (ix2 r j) = track' (ix2 r' j)) :
    sqDist pred track r = sqDist pred' track' r' := by
  unfold sqDist
  simp only [hp, ht]

section
variable (hpm : (⟨2, ![5000000, 6]⟩ : Shape).Pads ![0, 0] ![5312, 0] ![0, 0] ⟨2, ![5005312, 6]⟩)
  (hpv : (⟨1, ![5000000]⟩ : Shape).Pads ![0] ![5312] ![0] ⟨1, ![5005312]⟩)
  (h0 : 0 < (⟨0, ![]⟩ : Shape).numel)
  (hbK : (⟨1, ![5005312]⟩ : Shape).BroadcastsInDim ⟨2, ![5005312, 1]⟩ ![0])
  (hbR : (⟨1, ![5000000]⟩ : Shape).BroadcastsInDim ⟨2, ![5000000, 1]⟩ ![0])
  (wfK : ScatterDims.WF ⟨1, ![50000]⟩ ⟨2, ![5005312, 1]⟩ ⟨1, ![5005312]⟩ [] [0] [0] 1)
  (wfR : ScatterDims.WF ⟨1, ![50000]⟩ ⟨2, ![5000000, 1]⟩ ⟨1, ![5000000]⟩ [] [0] [0] 1)
  (z : (⟨1, ![50000]⟩ : Shape).Idx → EReal)
  (pred track : (⟨2, ![5000000, 6]⟩ : Shape).Idx → EReal) (pid recon : (⟨1, ![5000000]⟩ : Shape).Idx → BitVec 32)

/-- The padded matrices and vectors. -/
abbrev padM (x : (⟨2, ![5000000, 6]⟩ : Shape).Idx → EReal) : (⟨2, ![5005312, 6]⟩ : Shape).Idx → EReal :=
  pad ⟨2, ![5005312, 6]⟩ ![0, 0] ![5312, 0] ![0, 0] x padF hpm h0
abbrev padV (x : (⟨1, ![5000000]⟩ : Shape).Idx → BitVec 32) : (⟨1, ![5005312]⟩ : Shape).Idx → BitVec 32 :=
  pad ⟨1, ![5005312]⟩ ![0] ![5312] ![0] x padI hpv h0

/-- The ids of the first 5000000 padded rows are the reference's. -/
theorem ids_head (p : Fin 5000000) :
    broadcastInDim ⟨2, ![5005312, 1]⟩ ![0] hbK (padV hpv h0 pid) (ix2 (Fin.castAdd 5312 p) (0 : Fin 1))
      = broadcastInDim ⟨2, ![5000000, 1]⟩ ![0] hbR pid (ix2 p (0 : Fin 1)) := by
  refine (col_apply (n := 5005312) (by decide) hbK _ (Fin.castAdd 5312 p) 0).trans ?_
  refine Eq.trans ?_ (col_apply (n := 5000000) (by decide) hbR pid p 0).symm
  exact padv_head hpv h0 pid padI (Fin.castAdd 5312 p) p rfl

/-- The weight of one of the first 5000000 padded rows is the row's weight. -/
theorem weight_head (p : Fin 5000000) :
    weightAll (padV hpv h0 pid) (padV hpv h0 recon) (ix1 (Fin.castAdd 5312 p)) = weight (pid (ix1 p)) (recon (ix1 p)) := by
  show weight (padV hpv h0 pid (ix1 (Fin.castAdd 5312 p))) (padV hpv h0 recon (ix1 (Fin.castAdd 5312 p))) = _
  rw [show padV hpv h0 pid (ix1 (Fin.castAdd 5312 p)) = pid (ix1 p) from padv_head hpv h0 pid padI (Fin.castAdd 5312 p) p rfl,
    show padV hpv h0 recon (ix1 (Fin.castAdd 5312 p)) = recon (ix1 p) from padv_head hpv h0 recon padI (Fin.castAdd 5312 p) p rfl]

/-- The weight of an appended row is 0. -/
theorem weight_tail (p : Fin 5312) :
    weightAll (padV hpv h0 pid) (padV hpv h0 recon) (ix1 (Fin.natAdd 5000000 p)) = 0 := by
  show weight (padV hpv h0 pid (ix1 (Fin.natAdd 5000000 p))) (padV hpv h0 recon (ix1 (Fin.natAdd 5000000 p))) = _
  rw [show padV hpv h0 pid (ix1 (Fin.natAdd 5000000 p)) = padI (Shape.Idx.first h0) from
      padv_tail hpv h0 pid padI (Fin.natAdd 5000000 p) (Nat.le_add_right _ _),
    show padV hpv h0 recon (ix1 (Fin.natAdd 5000000 p)) = padI (Shape.Idx.first h0) from
      padv_tail hpv h0 recon padI (Fin.natAdd 5000000 p) (Nat.le_add_right _ _)]
  exact weight_zero

/-- The weighted squared distance of one of the first 5000000 padded rows is the row's. -/
theorem wdist_head (p : Fin 5000000) :
    wdistAll (padM hpm h0 pred) (padM hpm h0 track) (padV hpv h0 pid) (padV hpv h0 recon) (ix1 (Fin.castAdd 5312 p))
      = sqDist pred track p * weight (pid (ix1 p)) (recon (ix1 p)) := by
  show sqDist (n := 5005312) (padM hpm h0 pred) (padM hpm h0 track) (Fin.castAdd 5312 p)
      * weightAll (padV hpv h0 pid) (padV hpv h0 recon) (ix1 (Fin.castAdd 5312 p)) = _
  rw [weight_head]
  refine congrArg (· * _) (sqDist_congr _ _ _ _ _ p (fun j => ?_) (fun j => ?_))
  · exact padm_head hpm h0 pred padF (Fin.castAdd 5312 p) p rfl j
  · exact padm_head hpm h0 track padF (Fin.castAdd 5312 p) p rfl j

/-- The weighted squared distance of an appended row is 0: its weight is. -/
theorem wdist_tail (p : Fin 5312) :
    wdistAll (padM hpm h0 pred) (padM hpm h0 track) (padV hpv h0 pid) (padV hpv h0 recon) (ix1 (Fin.natAdd 5000000 p)) = 0 := by
  show sqDist (n := 5005312) (padM hpm h0 pred) (padM hpm h0 track) (Fin.natAdd 5000000 p)
      * weightAll (padV hpv h0 pid) (padV hpv h0 recon) (ix1 (Fin.natAdd 5000000 p)) = _
  rw [weight_tail, mul_zero]

/-- THE PER-PARTICLE SUMS agree. -/
theorem sums_eq (updR : (⟨1, ![5000000]⟩ : Shape).Idx → EReal)
    (hupdR : ∀ p : Fin 5000000, updR (ix1 p) = sqDist pred track p * weight (pid (ix1 p)) (recon (ix1 p))) :
    Host.scatterAdd (F := Ideal) (φ := .f32) (⟨[], [0], [0], 1, wfK⟩ : ScatterDims ⟨1, ![50000]⟩ ⟨2, ![5005312, 1]⟩ ⟨1, ![5005312]⟩) z
        (broadcastInDim ⟨2, ![5005312, 1]⟩ ![0] hbK (padV hpv h0 pid))
        (wdistAll (padM hpm h0 pred) (padM hpm h0 track) (padV hpv h0 pid) (padV hpv h0 recon))
      = Host.scatterAdd (F := Ideal) (φ := .f32) (⟨[], [0], [0], 1, wfR⟩ : ScatterDims ⟨1, ![50000]⟩ ⟨2, ![5000000, 1]⟩ ⟨1, ![5000000]⟩) z
        (broadcastInDim ⟨2, ![5000000, 1]⟩ ![0] hbR pid) updR :=
  scatter_vec_drop_tail (C := 50000) (n := 5000000) (k := 5312) wfK wfR z _ _ _ _
    (fun p => ids_head hpv h0 hbK hbR pid p)
    (fun p => (wdist_head hpm hpv h0 pred track pid recon p).trans (hupdR p).symm)
    (fun p => wdist_tail hpm hpv h0 pred track pid recon p)

/-- THE PER-PARTICLE COUNTS agree. -/
theorem counts_eq (updR : (⟨1, ![5000000]⟩ : Shape).Idx → EReal)
    (hupdR : ∀ p : Fin 5000000, updR (ix1 p) = weight (pid (ix1 p)) (recon (ix1 p))) :
    Host.scatterAdd (F := Ideal) (φ := .f32) (⟨[], [0], [0], 1, wfK⟩ : ScatterDims ⟨1, ![50000]⟩ ⟨2, ![5005312, 1]⟩ ⟨1, ![5005312]⟩) z
        (broadcastInDim ⟨2, ![5005312, 1]⟩ ![0] hbK (padV hpv h0 pid))
        (weightAll (padV hpv h0 pid) (padV hpv h0 recon))
      = Host.scatterAdd (F := Ideal) (φ := .f32) (⟨[], [0], [0], 1, wfR⟩ : ScatterDims ⟨1, ![50000]⟩ ⟨2, ![5000000, 1]⟩ ⟨1, ![5000000]⟩) z
        (broadcastInDim ⟨2, ![5000000, 1]⟩ ![0] hbR pid) updR :=
  scatter_vec_drop_tail (C := 50000) (n := 5000000) (k := 5312) wfK wfR z _ _ _ _
    (fun p => ids_head hpv h0 hbK hbR pid p)
    (fun p => (weight_head hpv h0 pid recon p).trans (hupdR p).symm)
    (fun p => weight_tail hpv h0 pid recon p)

end

open Cert.ReferenceIdeal.ReadP Cert.ReferenceIdeal.Stages in
/-- THE LOSSES agree: the kernel program's result term, over the padded arguments, is the reference's last stage. -/
theorem loss_eq (pred : (⟨Cert.ReferenceIdeal.S5000000x6, .f32⟩ : BufTy).Contents (Elt Ideal))
    (pid : (⟨Cert.ReferenceIdeal.S5000000, .i32⟩ : BufTy).Contents (Elt Ideal))
    (track : (⟨Cert.ReferenceIdeal.S5000000x6, .f32⟩ : BufTy).Contents (Elt Ideal))
    (recon : (⟨Cert.ReferenceIdeal.S5000000, .i32⟩ : BufTy).Contents (Elt Ideal)) :
    lossOf (padV Cert.KernelIdeal.Facts₀.pads_S5000000_S5005312_053120 Cert.KernelIdeal.Facts₀.h_S_ pid)
        (wdistAll (padM Cert.KernelIdeal.Facts₀.pads_S5000000x6_S5005312x6_053120_000 Cert.KernelIdeal.Facts₀.h_S_ pred)
          (padM Cert.KernelIdeal.Facts₀.pads_S5000000x6_S5005312x6_053120_000 Cert.KernelIdeal.Facts₀.h_S_ track)
          (padV Cert.KernelIdeal.Facts₀.pads_S5000000_S5005312_053120 Cert.KernelIdeal.Facts₀.h_S_ pid)
          (padV Cert.KernelIdeal.Facts₀.pads_S5000000_S5005312_053120 Cert.KernelIdeal.Facts₀.h_S_ recon))
        (weightAll (padV Cert.KernelIdeal.Facts₀.pads_S5000000_S5005312_053120 Cert.KernelIdeal.Facts₀.h_S_ pid)
          (padV Cert.KernelIdeal.Facts₀.pads_S5000000_S5005312_053120 Cert.KernelIdeal.Facts₀.h_S_ recon))
      = val_main_v26 (F := Ideal) pred pid track recon := by
  have e : val_main_v26 (F := Ideal) pred pid track recon
      = lossTail Cert.ReferenceIdeal.Facts₀.bcast_S_S50000 Cert.ReferenceIdeal.Facts₀.reducesTo_S50000_S_d0 Cert.ReferenceIdeal.Facts₀.h_S_
          Cert.ReferenceIdeal.Facts₀.natLt_1_32 (val_main_v12 (F := Ideal) pred pid track recon) (val_main_v15 (F := Ideal) pid recon) := rfl
  rw [e]
  unfold lossOf
  have hs := sums_eq Cert.KernelIdeal.Facts₀.pads_S5000000x6_S5005312x6_053120_000 Cert.KernelIdeal.Facts₀.pads_S5000000_S5005312_053120
    Cert.KernelIdeal.Facts₀.h_S_ Cert.KernelIdeal.Facts₀.bcast_S5005312_S5005312x1_0 Cert.ReferenceIdeal.Facts₀.bcast_S5000000_S5000000x1_0
    Cert.KernelIdeal.Facts₀.scatter_S50000_S5005312x1_S5005312_n_0_0_1_wf Cert.ReferenceIdeal.Facts₀.scatter_S50000_S5000000x1_S5000000_n_0_0_1_wf
    (val_main_v10 (F := Ideal)) pred track pid recon (val_main_v9 (F := Ideal) pred pid track recon) (fun p => wdist_row pred pid track recon p)
  have hc := counts_eq Cert.KernelIdeal.Facts₀.pads_S5000000_S5005312_053120
    Cert.KernelIdeal.Facts₀.h_S_ Cert.KernelIdeal.Facts₀.bcast_S5005312_S5005312x1_0 Cert.ReferenceIdeal.Facts₀.bcast_S5000000_S5000000x1_0
    Cert.KernelIdeal.Facts₀.scatter_S50000_S5005312x1_S5005312_n_0_0_1_wf Cert.ReferenceIdeal.Facts₀.scatter_S50000_S5000000x1_S5000000_n_0_0_1_wf
    (val_main_v13 (F := Ideal)) pid recon (val_main_v5 (F := Ideal) pid recon) (fun p => weight_row pid recon p)
  exact congr (congrArg (lossTail _ _ _ _) hs) hc

end Cert.Bridge

end
-- ==== Proof.lean ====
/-
  The object loss: a Pallas kernel for the per-hit part against the plain reference, equal over the extended reals.

  Both programs give each hit a weight (1 when it is reconstructable and belongs to a particle, else 0) and a squared
  distance between its six predicted and true track parameters; accumulate, per particle id, the weighted squared
  distances and the weights; take for every particle that has a positive count the quotient of the two; and return 100
  times the sum of the quotients divided by the number of such particles.

  The kernel program pads the 5000000 hits to 5005312 = 611 · 8192 rows with zeros, computes the two per-hit arrays block
  by block in the kernel (611 blocks of 8192 rows tile the padded rows), and accumulates all 5005312 rows; the reference
  computes and accumulates the 5000000 rows.  An appended row has both integer words zero, hence weight 0, hence both of
  its per-hit values 0, and it adds nothing to the bucket it is sent to (bucket 0); below row 5000000 the padded arrays
  are the arguments.  Sums over the rows are taken in the extended reals, where addition is commutative and associative,
  so the accumulations agree bucket by bucket whatever their order; the truth bit converted as an unsigned bit (the
  reference) or widened and converted as a signed word (the kernel) is the same float; the tail after the accumulations is
  the same function on both sides.  No finiteness of the inputs is used.

  The idealization rewrote nothing, so that claim is trivial; the kernel programs' frames are the generated ones; the
  reference's frame is its run with the result dropped.
-/
import proofs.«164376_j45432164057703_1_alg».proof.Defs
import proofs.«164376_j45432164057703_1_alg».proof.Proof.Gen.Kernel
import proofs.«164376_j45432164057703_1_alg».proof.Proof.Gen.Kernel.Skeleton
import proofs.«164376_j45432164057703_1_alg».proof.Proof.Gen.Kernel.Launch
import proofs.«164376_j45432164057703_1_alg».proof.Proof.Gen.Kernel.Points
import proofs.«164376_j45432164057703_1_alg».proof.Proof.Gen.Kernel.Frame
import proofs.«164376_j45432164057703_1_alg».proof.Proof.Gen.KernelIdeal
import proofs.«164376_j45432164057703_1_alg».proof.Proof.Gen.KernelIdeal.Skeleton
import proofs.«164376_j45432164057703_1_alg».proof.Proof.Gen.KernelIdeal.Launch
import proofs.«164376_j45432164057703_1_alg».proof.Proof.Gen.KernelIdeal.Points
import proofs.«164376_j45432164057703_1_alg».proof.Proof.Gen.KernelIdeal.Frame
import proofs.«164376_j45432164057703_1_alg».proof.Proof.Gen.ReferenceIdeal
import proofs.«164376_j45432164057703_1_alg».proof.Proof.RefRun
import proofs.«164376_j45432164057703_1_alg».proof.Proof.RefRead
import proofs.«164376_j45432164057703_1_alg».proof.Proof.Gen.Pre_finite_inputs
import proofs.«164376_j45432164057703_1_alg».proof.Proof.KernelPads
import proofs.«164376_j45432164057703_1_alg».proof.Proof.KernelHost
import proofs.«164376_j45432164057703_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the reference's last stage of the arguments: the kernel program's loss over the padded arguments
    is that stage (the per-particle sums and counts agree), and the reference's run states it. -/
theorem algebraic : Cert.algebraic_KernelIdeal_ReferenceIdeal := by
  intro m ρ m' ρ' _ hagree
  refine ⟨fun c => Cert.ReferenceIdeal.ReadP.val_main_v26 (F := Ideal)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩) (Cert.KernelIdeal.HostSide.run m ρ)
    rw [Cert.KernelIdeal.HostSide.predP_eq m c, Cert.KernelIdeal.HostSide.trackP_eq m c, Cert.KernelIdeal.HostSide.pidP_eq m c,
      Cert.KernelIdeal.HostSide.reconP_eq m c]
    exact Cert.Bridge.loss_eq _ _ _ _
  · refine (θ_run Cert.ReferenceIdeal.defs _ _).mono (fun _ h c => ⟨(h c).1.trans ?_, (h c).2⟩)
      (Cert.ReferenceIdeal.ValueP.run (F := Ideal) m' ρ')
    rw [(hagree c).2.2.2.1, (hagree c).2.2.2.2.2.1, (hagree c).2.2.2.2.2.2.1, (hagree c).2.2.2.2.2.2.2]
    exact Cert.ReferenceIdeal.ReadP.val_main_v26_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
